-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x32768 : Shape := ⟨2, ![2048, 32768]⟩
abbrev S1x32768 : Shape := ⟨2, ![1, 32768]⟩
abbrev S16384 : Shape := ⟨1, ![16384]⟩
abbrev S_ : Shape := ⟨0, ![]⟩

class Facts : Prop where
  bcast_S_S2048x32768 : S_.BroadcastsInDim S2048x32768 (![] : Fin 0 → Fin S2048x32768.rank)
  reducesTo_S2048x32768_S_d0_1 : S2048x32768.ReducesTo [0, 1] S_
  h_S_ : 0 < S_.numel
  bcast_S_S1x32768 : S_.BroadcastsInDim S1x32768 (![] : Fin 0 → Fin S1x32768.rank)
  reducesTo_S1x32768_S_d0_1 : S1x32768.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S2048x32768 .f32) (main_arg1 : FVec F S1x32768 .f32) (main_arg2 : FVec F S16384 .f32) : IVec S_ 1 :=
  let main_v0 : FVec F S2048x32768 .f32 := Host.absf main_arg0
  let main_cst : FVec F S_ .f32 := constant S_ .f32 0x7F800000#32
  let main_v1 : FVec F S2048x32768 .f32 := broadcastInDim S2048x32768 ![] bcast_S_S2048x32768 main_cst
  let main_v2 : IVec S2048x32768 1 := cmpf .olt main_v0 main_v1
  let main_c : IVec S_ 1 := constantI S_ 1 1#1
  let main_v3 : IVec S_ 1 := (fun x v => Host.reduce IntOp.andi x v reducesTo_S2048x32768_S_d0_1 h_S_) main_v2 main_c
  let main_v4 : FVec F S1x32768 .f32 := Host.absf main_arg1
  let main_cst_0 : FVec F S_ .f32 := constant S_ .f32 0x7F800000#32
  let main_v5 : FVec F S1x32768 .f32 := broadcastInDim S1x32768 ![] bcast_S_S1x32768 main_cst_0
  let main_v6 : IVec S1x32768 1 := cmpf .olt main_v4 main_v5
  let main_c_1 : IVec S_ 1 := constantI S_ 1 1#1
  let main_v7 : IVec S_ 1 := (fun x v => Host.reduce IntOp.andi x v reducesTo_S1x32768_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S2048x32768 : Shape := ⟨2, ![2048, 32768]⟩
abbrev S1x32768 : Shape := ⟨2, ![1, 32768]⟩
abbrev S16384 : Shape := ⟨1, ![16384]⟩
abbrev S512 : Shape := ⟨1, ![512]⟩
abbrev S256 : Shape := ⟨1, ![256]⟩
abbrev S1x256 : Shape := ⟨2, ![1, 256]⟩
abbrev S_ : Shape := ⟨0, ![]⟩
abbrev S512x1 : Shape := ⟨2, ![512, 1]⟩
abbrev S512x256 : Shape := ⟨2, ![512, 256]⟩
abbrev S2048x16384 : Shape := ⟨2, ![2048, 16384]⟩
abbrev S2048x512 : Shape := ⟨2, ![2048, 512]⟩
abbrev S1x512 : Shape := ⟨2, ![1, 512]⟩
abbrev S2048x256 : Shape := ⟨2, ![2048, 256]⟩

abbrev nBuf : Space → Nat
  | .hbm => 30
  | .vmem => 9
  | .smem => 0
  | _ => 0

abbrev bufTy : (tb : Table) → Fin (tcTables nBuf tb) → BufTy
  | .hbm, ⟨0, _⟩ => ⟨S2048x32768, .f32⟩
  | .hbm, ⟨1, _⟩ => ⟨S1x32768, .f32⟩
  | .hbm, ⟨2, _⟩ => ⟨S16384, .f32⟩
  | .hbm, ⟨3, _⟩ => ⟨S512, .i32⟩
  | .hbm, ⟨4, _⟩ => ⟨S256, .i32⟩
  | .hbm, ⟨5, _⟩ => ⟨S1x256, .i32⟩
  | .hbm, ⟨6, _⟩ => ⟨S_, .i32⟩
  | .hbm, ⟨7, _⟩ => ⟨S_, .i32⟩
  | .hbm, ⟨8, _⟩ => ⟨S512, .i32⟩
  | .hbm, ⟨9, _⟩ => ⟨S512, .i32⟩
  | .hbm, ⟨10, _⟩ => ⟨S512, .i32⟩
  | .hbm, ⟨11, _⟩ => ⟨S_, .i32⟩
  | .hbm, ⟨12, _⟩ => ⟨S512, .i32⟩
  | .hbm, ⟨13, _⟩ => ⟨S512, .i1⟩
  | .hbm, ⟨14, _⟩ => ⟨S512, .i32⟩
  | .hbm, ⟨15, _⟩ => ⟨S512, .i32⟩
  | .hbm, ⟨16, _⟩ => ⟨S_, .i32⟩
  | .hbm, ⟨17, _⟩ => ⟨S512, .i32⟩
  | .hbm, ⟨18, _⟩ => ⟨S512, .i1⟩
  | .hbm, ⟨19, _⟩ => ⟨S512, .i1⟩
  | .hbm, ⟨20, _⟩ => ⟨S_, .i32⟩
  | .hbm, ⟨21, _⟩ => ⟨S512, .i32⟩
  | .hbm, ⟨22, _⟩ => ⟨S512, .i32⟩
  | .hbm, ⟨23, _⟩ => ⟨S512, .i32⟩
  | .hbm, ⟨24, _⟩ => ⟨S512x1, .i32⟩
  | .hbm, ⟨25, _⟩ => ⟨S512x256, .i32⟩
  | .hbm, ⟨26, _⟩ => ⟨S512x256, .i32⟩
  | .hbm, ⟨27, _⟩ => ⟨S512x256, .i1⟩
  | .hbm, ⟨28, _⟩ => ⟨S512x256, .bf16⟩
  | .hbm, ⟨29, _⟩ => ⟨S2048x16384, .f32⟩
  | .local _ .vmem, ⟨0, _⟩ => ⟨S2048x512, .f32⟩
  | .local _ .vmem, ⟨1, _⟩ => ⟨S2048x512, .f32⟩
  | .local _ .vmem, ⟨2, _⟩ => ⟨S1x512, .f32⟩
  | .local _ .vmem, ⟨3, _⟩ => ⟨S1x512, .f32⟩
  | .local _ .vmem, ⟨4, _⟩ => ⟨S512x256, .bf16⟩
  | .local _ .vmem, ⟨5, _⟩ => ⟨S256, .f32⟩
  | .local _ .vmem, ⟨6, _⟩ => ⟨S256, .f32⟩
  | .local _ .vmem, ⟨7, _⟩ => ⟨S2048x256, .f32⟩
  | .local _ .vmem, ⟨8, _⟩ => ⟨S2048x256, .f32⟩
  | _, _ => ⟨S2048x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S256_S1x256_1 : S256.BroadcastsInDim S1x256 (![1] : Fin 1 → Fin S1x256.rank)
  bcast_S_S512 : S_.BroadcastsInDim S512 (![] : Fin 0 → Fin S512.rank)
  bcast_S512_S512x1_0 : S512.BroadcastsInDim S512x1 (![0] : Fin 1 → Fin S512x1.rank)
  bcast_S1x256_S512x256_0_1 : S1x256.BroadcastsInDim S512x256 (![0, 1] : Fin 2 → Fin S512x256.rank)
  bcast_S512x1_S512x256_0_1 : S512x1.BroadcastsInDim S512x256 (![0, 1] : Fin 2 → Fin S512x256.rank)
  inb_S2048x512_S2048x512_0_0 : ∀ a, (![0, 0] : Fin 2 → Nat) a + S2048x512.size a ≤ S2048x512.size a
  h_S2048x512 : 0 < S2048x512.numel
  inb_S1x512_S1x512_0_0 : ∀ a, (![0, 0] : Fin 2 → Nat) a + S1x512.size a ≤ S1x512.size a
  h_S1x512 : 0 < S1x512.numel
  broadcasts_S1x512_S2048x512 : S1x512.Broadcasts S2048x512
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  dot_S2048x512_S512x256_S2048x256_1_0_0_1_n_n_wf : DotDims.WF S2048x512 S512x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S2048x32768.size a
  hwx0_0 : ∀ i : grid0.Coords, EltTy.bits .f32 = 32 ∨ (Rect.block (s := S2048x32768) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x32768.size a
  hwx0_1 : ∀ i : grid0.Coords, EltTy.bits .f32 = 32 ∨ (Rect.block (s := S1x32768) S1x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .bf16 = 32 ∨ (Rect.block (s := S512x256) S512x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S16384.size a
  hwx0_3 : ∀ i : grid0.Coords, EltTy.bits .f32 = 32 ∨ (Rect.block (s := S16384) S256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S2048x16384.size a
  hwx0_4 : ∀ i : grid0.Coords, EltTy.bits .f32 = 32 ∨ (Rect.block (s := S2048x16384) S2048x256.size (cc0_transform_4 i) (hinb0_4 i)).WholeWords (EltTy.packing .f32)

variable [Facts₀]

def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S2048x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2048x32768 : Shape := ⟨2, ![2048, 32768]⟩
abbrev S1x32768 : Shape := ⟨2, ![1, 32768]⟩
abbrev S16384 : Shape := ⟨1, ![16384]⟩
abbrev S2048x16384x2 : Shape := ⟨3, ![2048, 16384, 2]⟩
abbrev S_ : Shape := ⟨0, ![]⟩
abbrev S2048x16384 : Shape := ⟨2, ![2048, 16384]⟩
abbrev S1x16384 : Shape := ⟨2, ![1, 16384]⟩

abbrev nBuf : Space → Nat
  | .hbm => 18
  | .vmem => 0
  | .smem => 0
  | _ => 0

abbrev bufTy : (tb : Table) → Fin (tcTables nBuf tb) → BufTy
  | .hbm, ⟨0, _⟩ => ⟨S2048x32768, .f32⟩
  | .hbm, ⟨1, _⟩ => ⟨S1x32768, .f32⟩
  | .hbm, ⟨2, _⟩ => ⟨S16384, .f32⟩
  | .hbm, ⟨3, _⟩ => ⟨S2048x32768, .f32⟩
  | .hbm, ⟨4, _⟩ => ⟨S2048x32768, .f32⟩
  | .hbm, ⟨5, _⟩ => ⟨S2048x16384x2, .f32⟩
  | .hbm, ⟨6, _⟩ => ⟨S_, .f32⟩
  | .hbm, ⟨7, _⟩ => ⟨S2048x16384, .f32⟩
  | .hbm, ⟨8, _⟩ => ⟨S1x16384, .f32⟩
  | .hbm, ⟨9, _⟩ => ⟨S2048x16384, .f32⟩
  | .hbm, ⟨10, _⟩ => ⟨S2048x16384, .f32⟩
  | .hbm, ⟨11, _⟩ => ⟨S_, .f32⟩
  | .hbm, ⟨12, _⟩ => ⟨S2048x16384, .f32⟩
  | .hbm, ⟨13, _⟩ => ⟨S2048x16384, .i1⟩
  | .hbm, ⟨14, _⟩ => ⟨S_, .f32⟩
  | .hbm, ⟨15, _⟩ => ⟨S2048x16384, .f32⟩
  | .hbm, ⟨16, _⟩ => ⟨S2048x16384, .f32⟩
  | .hbm, ⟨17, _⟩ => ⟨S2048x16384, .f32⟩
  | _, _ => ⟨S2048x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]

class Facts₀ : Prop where
  bcast_S1x32768_S2048x32768_0_1 : S1x32768.BroadcastsInDim S2048x32768 (![0, 1] : Fin 2 → Fin S2048x32768.rank)
  shapeCasts_S2048x32768_S2048x16384x2 : S2048x32768.ShapeCasts S2048x16384x2
  reducesTo_S2048x16384x2_S2048x16384_d2 : S2048x16384x2.ReducesTo [2] S2048x16384
  h_S_ : 0 < S_.numel
  bcast_S16384_S1x16384_1 : S16384.BroadcastsInDim S1x16384 (![1] : Fin 1 → Fin S1x16384.rank)
  bcast_S1x16384_S2048x16384_0_1 : S1x16384.BroadcastsInDim S2048x16384 (![0, 1] : Fin 2 → Fin S2048x16384.rank)
  bcast_S_S2048x16384 : S_.BroadcastsInDim S2048x16384 (![] : Fin 0 → Fin S2048x16384.rank)

variable [Facts₀]

class Facts : Prop extends Facts₀ where

variable [Facts]
-- ==== Proof.Spec.lean ====
/-
  What both programs compute, as one function of the three argument arrays, and the law that joins them.

  Row b, output column J of the result is  leaky( (x[b, 2J]·w[0, 2J] + x[b, 2J+1]·w[0, 2J+1]) + bias[J] ),
  where  leaky z = z  if z ≥ 0  and  c·z  otherwise, c the slope's f32 word (the same word in both programs,
  never evaluated).

  The reference forms the pair sum by folding the length-2 last axis of the scaled array laid out as
  [2048, 16384, 2].  The kernel forms it, 512 input columns at a time, as a product with a 512 × 256 matrix P whose
  entry (k, j) is 1 when k / 2 = j and 0 otherwise: the sum over k of a k · P(k, j) keeps exactly the two terms
  k = 2j and k = 2j + 1.  On the extended reals this needs only a·1 = a, a·0 = 0 and that + is a commutative
  monoid, so no finiteness of the inputs enters.
-/
import Idealize.ShloMosaic.PureOps.Ideal
import Idealize.ShloMosaic.PureOps.Ideal.Laws
import Idealize.ShloMosaic.Lib.ValueIdx
import Mathlib.Algebra.BigOperators.Fin

open scoped BigOperators

noncomputable section

namespace Cert.PairPool

open Idealize.ShloMosaic Idealize.ShloMosaic.ValueIdx

/-- The leaky step on one extended real: keep z when z ≥ 0, else scale it by the slope's word. -/
def leaky (z : EReal) : EReal :=
  Scalar.select (FloatOps.cmpf (F := Ideal) (φ := .f32) .oge z (Ideal.ofBits .f32 0x00000000#32)) z
    ((Ideal.ofBits .f32 0x3C23D70A#32 : EReal) * z)

/-- Input column 2J + d of output column J (d = 0, 1). -/
def col (J : Fin 16384) (d : Fin 2) : Fin 32768 := ⟨2 * J.val + d.val, by have := J.isLt; have := d.isLt; omega⟩

/-- The result at row b, output column J. -/
def outAt (X : (⟨2, ![2048, 32768]⟩ : Shape).Idx → EReal) (W : (⟨2, ![1, 32768]⟩ : Shape).Idx → EReal)
    (Bv : (⟨1, ![16384]⟩ : Shape).Idx → EReal) (b : Fin 2048) (J : Fin 16384) : EReal :=
  leaky ((X (ix2 b (col J 0)) * W (ix2 0 (col J 0)) + X (ix2 b (col J 1)) * W (ix2 0 (col J 1))) + Bv (ix1 J))

/-- The whole result array. -/
def G (X : (⟨2, ![2048, 32768]⟩ : Shape).Idx → EReal) (W : (⟨2, ![1, 32768]⟩ : Shape).Idx → EReal)
    (Bv : (⟨1, ![16384]⟩ : Shape).Idx → EReal) : (⟨2, ![2048, 16384]⟩ : Shape).Idx → EReal :=
  fun i => outAt X W Bv (i 0) (i 1)

/-- THE LAW.  Summing a k against the 0/1 column "k / 2 = j" over the 512 values of k leaves the two terms of pair j. -/
theorem pooled_sum (a : Fin 512 → EReal) (j : Fin 256) :
    ∑ k : Fin 512, a k * (if k.val / 2 = j.val then (1 : EReal) else 0)
      = a ⟨2 * j.val, by have := j.isLt; omega⟩ + a ⟨2 * j.val + 1, by have := j.isLt; omega⟩ := by
  have hj := j.isLt
  simp only [mul_ite, mul_one, mul_zero]
  rw [← Finset.sum_filter]
  have hset : Finset.univ.filter (fun k : Fin 512 => k.val / 2 = j.val)
      = {(⟨2 * j.val, by omega⟩ : Fin 512), (⟨2 * j.val + 1, by omega⟩ : Fin 512)} := by
    ext k
    simp only [Finset.mem_filter, Finset.mem_univ, true_and, Finset.mem_insert, Finset.mem_singleton, Fin.ext_iff]
    omega
  rw [hset, Finset.sum_pair (by simp only [ne_eq, Fin.ext_iff]; omega)]

end Cert.PairPool

end
-- ==== Proof.LibPlainMatmul.lean ====
/-
  A MATRIX PRODUCT READ AT AN ENTRY. A kernel's `tpu.matmul` of an m × k matrix by a k × n matrix (the left operand
  contracted on its columns, the right one on its rows, no batch axis) that accumulates into the zero splat is, at the
  ideal values and at entry (a, b), the sum over the contracted coordinate c of A(a, c) · B(c, b): the accumulator adds
  the extended real 0, and the contraction's one-axis index set is the range of c.
-/
import Idealize.ShloMosaic.Lib.ValueIdx
import Idealize.ShloMosaic.PureOps.Ideal.Laws

open scoped BigOperators

noncomputable section

namespace Idealize.ShloMosaic.PlainMatmul

open Idealize.ShloMosaic Idealize.ShloMosaic.ValueIdx

variable {m k n : Nat} {φ₁ φ₂ : FTy}

/-- The dimension numbers of a plain product, whatever the evidence that they are well formed. -/
def dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ :=
  ⟨[1], [0], [0], [1], [], [], w⟩

/-- At output entry (a, b) and contracted coordinate c the left operand is read at (a, c). -/
theorem lhsIdx_dims (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have hc := contrEquiv1_symm_val (dims w) k rfl rfl c
  funext ax; apply Fin.ext
  match ax with
  | ⟨0, _⟩ => simp [DotDims.lhsIdx, dims]; rfl
  | ⟨1, _⟩ => simp [DotDims.lhsIdx, dims]; exact hc

/-- … and the right operand at (c, b). -/
theorem rhsIdx_dims (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have hc := contrEquiv1_symm_val (dims w) k rfl rfl c
  funext ax; apply Fin.ext
  match ax with
  | ⟨0, _⟩ => simp [DotDims.rhsIdx, dims]; exact hc
  | ⟨1, _⟩ => simp [DotDims.rhsIdx, dims]; rfl

/-- The product into the zero splat, at entry (a, b): the sum of the products along row a of A and column b of B. -/
theorem matmul_zero_apply (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] []) (hd : d = dims w)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  show FloatOps.matmul (dims w) prec A B (constant ⟨2, ![m, n]⟩ .f32 0x00000000#32) (ix2 a b) = _
  rw [Ideal.matmul_constant_zero_apply, ← Equiv.sum_comp (contrEquiv1 (dims w) k rfl rfl).symm]
  refine Finset.sum_congr rfl fun c _ => ?_
  rw [lhsIdx_dims, rhsIdx_dims]

end Idealize.ShloMosaic.PlainMatmul

end
-- ==== Proof.Body.lean ====
/-
  The kernel body's stored value at one entry of its 2048 × 256 block.

  From the four loaded blocks — x (2048 × 512), the weight row w (1 × 512), the matrix p (512 × 256) and the bias
  slice β (256) — the body stores, at row b and block column j,

      leaky( (Σ_{k < 512} (x[b,k] · w[0,k]) · p[k,j]) + β[j] ):

  the weight row is copied down the rows and multiplied in, the change of format to 16 bits is the identity on
  the extended reals, the matrix product into the zero block is the plain sum over the contracted coordinate, the bias
  vector is laid as one row and copied down the rows, and the comparison, the scaling and the choice act entry by entry.
-/
import proofs.«139264_j489626271943_1_alg».proof.Proof.Gen.KernelIdeal.Skeleton
import proofs.«139264_j489626271943_1_alg».proof.Proof.Spec
import proofs.«139264_j489626271943_1_alg».proof.Proof.LibPlainMatmul
import Idealize.ShloMosaic.Lib.Pipeline.Value
import Idealize.ShloMosaic.Lib.ValueIdx
import Idealize.ShloMosaic.PureOps.Ideal.Laws

open scoped BigOperators

noncomputable section

namespace Cert.KernelIdeal.Body

open Cert.KernelIdeal Cert.KernelIdeal.Gen Idealize.ShloMosaic Idealize.ShloMosaic.ValueIdx Cert.PairPool

/-- The weight row copied down the rows, read at (b, k): the row's entry k. -/
theorem weight_rows (x1 : Vec Ideal S1x512 .f32) (b : Fin 2048) (k : Fin 512) :
    broadcastTo S2048x512 x1 broadcasts_S1x512_S2048x512 (ix2 b k) = x1 (ix2 0 k) :=
  broadcastTo_apply x1 broadcasts_S1x512_S2048x512 (ix2 b k) (ix2 0 k) (fun a => by
    match a with
    | ⟨0, _⟩ => rfl
    | ⟨1, _⟩ => rfl)

/-- The bias slice laid as one row and copied down the rows, read at (b, j): the slice's entry j. -/
theorem bias_rows (x3 : Vec Ideal S256 .f32) (b : Fin 2048) (j : Fin 256) :
    broadcastTo S2048x256 (shapeCast S1x256 x3 shapeCasts_S256_S1x256) broadcasts_S1x256_S2048x256 (ix2 b j) = x3 (ix1 j) := by
  rw [broadcastTo_apply (shapeCast S1x256 x3 shapeCasts_S256_S1x256) broadcasts_S1x256_S2048x256 (ix2 b j) (ix2 0 j) (fun a => by
    match a with
    | ⟨0, _⟩ => rfl
    | ⟨1, _⟩ => rfl)]
  refine (shapeCast_addUnit_apply ![256] x3 shapeCasts_S256_S1x256 (ix2 0 j)).trans ?_
  exact congrArg x3 (funext fun a => by match a with | ⟨0, _⟩ => rfl)

/-- The matrix product of the body, at entry (b, j). -/
theorem product_apply (x0 : Vec Ideal S2048x512 .f32) (x1 : Vec Ideal S1x512 .f32) (x2 : Vec Ideal S512x256 .bf16)
    (b : Fin 2048) (j : Fin 256) :
    matmul (F := Ideal) (φ₁ := .bf16) (φ₂ := .bf16) dot_S2048x512_S512x256_S2048x256_1_0_0_1_n_n none
        (truncf .bf16 (mulf (φ := .f32) x0 (broadcastTo S2048x512 x1 broadcasts_S1x512_S2048x512)) bitsLt_bf16_f32)
        (shapeCast S512x256 x2 shapeCasts_S512x256_S512x256 : FVec Ideal S512x256 .bf16)
        (constant S2048x256 .f32 0x00000000#32) (ix2 b j)
      = ∑ k : Fin 512, (x0 (ix2 b k) * x1 (ix2 0 k)) * x2 (ix2 k j) := by
  rw [shapeCast_self]
  refine (PlainMatmul.matmul_zero_apply (φ₁ := .bf16) (φ₂ := .bf16) dot_S2048x512_S512x256_S2048x256_1_0_0_1_n_n
    dot_S2048x512_S512x256_S2048x256_1_0_0_1_n_n_wf rfl none _ x2 b j).trans ?_
  refine Finset.sum_congr rfl fun k _ => ?_
  rw [truncf_apply, mulf_apply, weight_rows]

/-- THE STORED VALUE at entry (b, j) of the block. -/
theorem stored_apply (x0 : Vec Ideal S2048x512 .f32) (x1 : Vec Ideal S1x512 .f32) (x2 : Vec Ideal S512x256 .bf16)
    (x3 : Vec Ideal S256 .f32) (b : Fin 2048) (j : Fin 256) :
    k0_pay1 x0 x1 x2 x3 (ix2 b j)
      = leaky ((∑ k : Fin 512, (x0 (ix2 b k) * x1 (ix2 0 k)) * x2 (ix2 k j)) + x3 (ix1 j)) := by
  unfold k0_pay1 leaky
  rw [select_apply, cmpf_apply, mulf_apply, addf_apply, broadcast_apply, broadcast_apply, product_apply, bias_rows]
  rfl

end Cert.KernelIdeal.Body

end
-- ==== Proof.Pool.lean ====
/-
  The 512 × 256 matrix the program builds on the host before the launch, entry by entry.

  The host numbers the rows k = 0 … 511 and the columns j = 0 … 255 (two iotas), halves each row number with the
  floor division by the constant 2, compares the halved row number laid along the rows with the column number laid
  along the columns, and converts the resulting bit to a 16-bit float.  So the entry (k, j) is 1 when k / 2 = j and 0
  otherwise.

  The floor division is printed as the host's rounding-toward-zero quotient, lowered by one where the signs of
  dividend and divisor differ and the remainder is not zero.  On the row numbers, which are non-negative words
  below 512, the correction never fires and the quotient is the natural-number half: decided over the 512 words.
-/
import proofs.«139264_j489626271943_1_alg».proof.Proof.Gen.KernelIdeal.Frame
import Idealize.ShloMosaic.Lib.StableHlo.Run
import Idealize.ShloMosaic.Lib.StableHlo.Predicate
import Idealize.ShloMosaic.Lib.ValueIdx

noncomputable section

namespace Cert.KernelIdeal.Pool

open Cert.KernelIdeal Cert.KernelIdeal.Gen Idealize.ShloMosaic Idealize.ShloMosaic.TcCoe Idealize.SL.Sem
open Idealize.ShloMosaic.StableHlo Idealize.ShloMosaic.ValueIdx

/-! ## The floor division by two, on one word -/

/-- The sign of a word read as a two's-complement integer: 0, −1 or 1. -/
def sgn (x : BitVec 32) : BitVec 32 := if x = 0 then 0 else if x.msb then -1 else 1

/-- The host's floor division of a word by 2: the quotient toward zero, less one when the signs of the word and of 2
    differ and the remainder is not zero. -/
def halfWord (x : BitVec 32) : BitVec 32 :=
  Scalar.select (IntOp.andi (IntOp.cmpi .ne (sgn x) (sgn 2#32)) (IntOp.cmpi .ne (IntOp.remsi .host x 2#32) 0#32))
    (IntOp.subi (IntOp.divsi .host x 2#32) 1#32) (IntOp.divsi .host x 2#32)

/-- On the row numbers it is the natural-number half. -/
theorem halfWord_row : ∀ k : Fin 512, halfWord (BitVec.ofNat 32 k.val) = BitVec.ofNat 32 (k.val / 2) := by
  decide +kernel

/-! ## The host's term for the matrix -/

/-- The halved row numbers, as the host computes them from the row iota. -/
def halves : IVec S512 32 :=
  select
    (andi
      (cmpi .ne (signi (iotaInDim S512 32 0))
        (broadcastInDim S512 ![] bcast_S_S512 (signi (id (constantI S_ 32 2#32)))))
      (cmpi .ne (Host.remsi (iotaInDim S512 32 0) (broadcastInDim S512 ![] bcast_S_S512 (id (constantI S_ 32 2#32))))
        (broadcastInDim S512 ![] bcast_S_S512 (constantI S_ 32 0#32))))
    (subi (Host.divsi (iotaInDim S512 32 0) (broadcastInDim S512 ![] bcast_S_S512 (id (constantI S_ 32 2#32))))
      (broadcastInDim S512 ![] bcast_S_S512 (constantI S_ 32 1#32)))
    (Host.divsi (iotaInDim S512 32 0) (broadcastInDim S512 ![] bcast_S_S512 (id (constantI S_ 32 2#32))))

/-- The matrix: the bit "column number = halved row number", as a float. -/
def matrix : FVec Ideal S512x256 .bf16 :=
  uitofp .bf16
    (cmpi .eq
      (broadcastInDim S512x256 ![0, 1] bcast_S1x256_S512x256_0_1
        (broadcastInDim S1x256 ![1] bcast_S256_S1x256_1 (iotaInDim S256 32 0)))
      (broadcastInDim S512x256 ![0, 1] bcast_S512x1_S512x256_0_1
        (broadcastInDim S512x1 ![0] bcast_S512_S512x1_0 halves)))

/-- Row k's halved number. -/
theorem halves_apply (k : Fin 512) : halves (Shape.Idx.ofFin k) = BitVec.ofNat 32 (k.val / 2) :=
  (show halves (Shape.Idx.ofFin k) = halfWord (BitVec.ofNat 32 k.val) from rfl).trans (halfWord_row k)

/-- ENTRY (k, j) of the matrix: 1 when k / 2 = j, else 0. -/
theorem matrix_apply (k : Fin 512) (j : Fin 256) :
    matrix (ix2 k j) = if k.val / 2 = j.val then (1 : EReal) else 0 := by
  have hij : ix2 k j = Predicate.ij k j := funext fun a => by
    match a with
    | ⟨0, _⟩ => rfl
    | ⟨1, _⟩ => rfl
  rw [hij]
  show (((IntOp.cmpi .eq
      (broadcastInDim S512x256 ![0, 1] bcast_S1x256_S512x256_0_1
        (broadcastInDim S1x256 ![1] bcast_S256_S1x256_1 (iotaInDim S256 32 0)) (Predicate.ij k j))
      (broadcastInDim S512x256 ![0, 1] bcast_S512x1_S512x256_0_1
        (broadcastInDim S512x1 ![0] bcast_S512_S512x1_0 halves) (Predicate.ij k j))).toNat : ℝ) : EReal) = _
  rw [Predicate.bcast_cols, Predicate.bcast_rows, halves_apply]
  show (((BitVec.ofBool (BitVec.ofNat 32 j.val == BitVec.ofNat 32 (k.val / 2))).toNat : ℝ) : EReal) = _
  have hk := k.isLt
  have hj := j.isLt
  by_cases h : k.val / 2 = j.val
  · rw [if_pos h, h, beq_self_eq_true, show (BitVec.ofBool true).toNat = 1 from rfl]
    norm_num
  · rw [if_neg h]
    have hne : (BitVec.ofNat 32 j.val == BitVec.ofNat 32 (k.val / 2)) = false := by
      rw [beq_eq_false_iff_ne]
      intro he
      have := congrArg BitVec.toNat he
      simp only [BitVec.toNat_ofNat] at this
      omega
    rw [hne]
    norm_num

/-! ## The matrix as the launch finds it -/

variable (m : (ℓ : Loc nD τ sig) → Buf (Elt Ideal) ℓ)

set_option maxHeartbeats 4000000 in
/-- The buffer the third operand of the launch stages holds the host's term: the host operations before the
    launch, read back in order. -/
theorem V_matrix (c : Dev nD) : (V m c main_v8 : S512x256.Idx → EReal) = matrix := by
  dsimp only [Gen.V]
  simp only [Gen.hostOps0, Gen.hostOps0_1, Gen.hostOps0_2, List.flatten_cons, List.flatten_nil, List.append_nil,
    List.cons_append, List.nil_append]
  after_results
  rfl

end Cert.KernelIdeal.Pool

end
-- ==== Proof.Blocks.lean ====
/-
  From what each grid point writes back to the whole result array.

  Grid point t (of 64) reads columns 512t … 512t + 511 of the input and of the weight row, the whole 512 × 256
  matrix, and entries 256t … 256t + 255 of the bias, and writes back columns 256t … 256t + 255 of the result.
  At row b and block column j the stored value is  leaky( (Σ_k (x[b, 512t+k]·w[0, 512t+k])·P[k, j]) + bias[256t+j] );
  with P[k, j] = 1 exactly when k / 2 = j, the sum is the pair  k = 2j, 2j + 1,  that is input columns
  2(256t + j) and 2(256t + j) + 1: the value of the whole-array function G at (b, 256t + j).
  The 64 blocks tile the 16384 result columns (column J lies in block J / 256), so the array ends holding G.
-/
import proofs.«139264_j489626271943_1_alg».proof.Proof.Gen.KernelIdeal.Value
import proofs.«139264_j489626271943_1_alg».proof.Proof.Spec
import proofs.«139264_j489626271943_1_alg».proof.Proof.Body
import proofs.«139264_j489626271943_1_alg».proof.Proof.Pool

open scoped BigOperators

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx Cert.PairPool

/-! ## One block, over plain arrays -/

/-- If the four loaded blocks are the slices of X, W, the 0/1 matrix and the bias that point t reads, the stored block
    is G's columns 256t … 256t + 255. -/
theorem block_value (X : (⟨2, ![2048, 32768]⟩ : Shape).Idx → EReal) (W : (⟨2, ![1, 32768]⟩ : Shape).Idx → EReal)
    (Bv : (⟨1, ![16384]⟩ : Shape).Idx → EReal) (t : ℕ) (ht : t < 64)
    (x0 : Vec Ideal S2048x512 .f32) (x1 : Vec Ideal S1x512 .f32) (x2 : Vec Ideal S512x256 .bf16) (x3 : Vec Ideal S256 .f32)
    (h0 : ∀ (b : Fin 2048) (k : Fin 512), x0 (ix2 b k) = X (ix2 b ⟨512 * t + k.val, by have := k.isLt; omega⟩))
    (h1 : ∀ k : Fin 512, x1 (ix2 0 k) = W (ix2 0 ⟨512 * t + k.val, by have := k.isLt; omega⟩))
    (h2 : ∀ (k : Fin 512) (j : Fin 256), x2 (ix2 k j) = if k.val / 2 = j.val then (1 : EReal) else 0)
    (h3 : ∀ j : Fin 256, x3 (ix1 j) = Bv (ix1 ⟨256 * t + j.val, by have := j.isLt; omega⟩))
    (b : Fin 2048) (j : Fin 256) :
    k0_pay1 x0 x1 x2 x3 (ix2 b j) = outAt X W Bv b ⟨256 * t + j.val, by have := j.isLt; omega⟩ := by
  have hj := j.isLt
  rw [Body.stored_apply]
  simp only [h2, h3]
  rw [pooled_sum (fun k => x0 (ix2 b k) * x1 (ix2 0 k)) j]
  simp only [h0, h1]
  unfold outAt
  have e0 : (⟨512 * t + 2 * j.val, by omega⟩ : Fin 32768) = col ⟨256 * t + j.val, by omega⟩ 0 :=
    Fin.ext (by show 512 * t + 2 * j.val = 2 * (256 * t + j.val) + 0; omega)
  have e1 : (⟨512 * t + (2 * j.val + 1), by omega⟩ : Fin 32768) = col ⟨256 * t + j.val, by omega⟩ 1 :=
    Fin.ext (by show 512 * t + (2 * j.val + 1) = 2 * (256 * t + j.val) + 1; omega)
  rw [e0, e1]

/-! ## The blocks of this launch -/

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-- Where each window's block sits at point t: decided over the 64 points. -/
theorem where_blocks : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = 0
    ∧ win0_3.index t (0 : Fin 1) = t.val
    ∧ win0_4.index t (0 : Fin 2) = 0 ∧ win0_4.index t (1 : Fin 2) = t.val :=
  (by decide +kernel : ∀ t : Fin grid0.N, _)

/-- The whole result as a function of the arrays the launch finds. -/
abbrev GV (c : Dev nD) : S2048x16384.Idx → EReal :=
  G (V m c main_arg0) (V m c main_arg1) (V m c main_arg2)

set_option maxHeartbeats 1000000 in
/-- WHAT POINT t WRITES BACK is block t of G. -/
theorem flushed_eq (c : Dev nD) (t : Fin cfg0.N) :
    (dats m 0 c).flushed 4 t = ((cfg0.win 4).blk t).view.read (Elt Ideal) (GV m c) := by
  rw [Value.flushed4]
  unfold out0_4
  rw [View.canon_unit_zero hz2]
  simp only [View.ld_unit_zero (S := S2048x512) hz2, View.ld_unit_zero (S := S1x512) hz2,
    View.ld_unit_zero (S := S512x256) hz2, View.ld_unit_zero (S := S256) hz1]
  obtain ⟨a00, a01, a10, a11, a20, a21, a30, a40, a41⟩ := where_blocks t
  have ht : t.val < 64 := lt_of_lt_of_eq t.isLt N_0
  refine funext fun (y : S2048x256.Idx) => ?_
  show k0_pay1 (F := Ideal) (iblk m c 0 t) (iblk m c 1 t) (iblk m c 2 t) (iblk m c 3 t) y
    = GV m c (((cfg0.win 4).blk t).view.emb y)
  obtain ⟨yb, yj, rfl⟩ : ∃ (yb : Fin 2048) (yj : Fin 256), y = ix2 yb yj := ⟨y 0, y 1, eq_ix2 y⟩
  refine (block_value (V m c main_arg0) (V m c main_arg1) (V m c main_arg2) t.val ht
    (iblk m c 0 t) (iblk m c 1 t) (iblk m c 2 t) (iblk m c 3 t) ?_ ?_ ?_ ?_ yb yj).trans ?_
  · intro b k
    show V m c main_arg0 (((cfg0.win 0).blk t).view.emb (ix2 b k)) = V m c main_arg0 _
    refine congrArg (V m c main_arg0) (funext fun a => Fin.ext ?_)
    match a with
    | ⟨0, _⟩ => show win0_0.index t (0 : Fin 2) * 2048 + 1 * b.val = b.val; omega
    | ⟨1, _⟩ => show win0_0.index t (1 : Fin 2) * 512 + 1 * k.val = 512 * t.val + k.val; omega
  · intro k
    show V m c main_arg1 (((cfg0.win 1).blk t).view.emb (ix2 0 k)) = V m c main_arg1 _
    refine congrArg (V m c main_arg1) (funext fun a => Fin.ext ?_)
    match a with
    | ⟨0, _⟩ => show win0_1.index t (0 : Fin 2) * 1 + 1 * 0 = 0; omega
    | ⟨1, _⟩ => show win0_1.index t (1 : Fin 2) * 512 + 1 * k.val = 512 * t.val + k.val; omega
  · intro k j
    show V m c main_v8 (((cfg0.win 2).blk t).view.emb (ix2 k j)) = _
    have e : ((cfg0.win 2).blk t).view.emb (ix2 k j) = ix2 k j := funext fun a => Fin.ext (by
      match a with
      | ⟨0, _⟩ => show win0_2.index t (0 : Fin 2) * 512 + 1 * k.val = k.val; omega
      | ⟨1, _⟩ => show win0_2.index t (1 : Fin 2) * 256 + 1 * j.val = j.val; omega)
    rw [e]
    exact (congrFun (Pool.V_matrix m c) (ix2 k j)).trans (Pool.matrix_apply k j)
  · intro j
    show V m c main_arg2 (((cfg0.win 3).blk t).view.emb (ix1 j)) = V m c main_arg2 _
    refine congrArg (V m c main_arg2) (funext fun a => Fin.ext ?_)
    match a with
    | ⟨0, _⟩ => show win0_3.index t (0 : Fin 1) * 256 + 1 * j.val = 256 * t.val + j.val; omega
  · show outAt _ _ _ _ _ = outAt _ _ _ ((((cfg0.win 4).blk t).view.emb (ix2 yb yj)) 0) ((((cfg0.win 4).blk t).view.emb (ix2 yb yj)) 1)
    congr 1
    · exact Fin.ext (by show yb.val = win0_4.index t (0 : Fin 2) * 2048 + 1 * yb.val; omega)
    · exact Fin.ext (by show 256 * t.val + yj.val = win0_4.index t (1 : Fin 2) * 256 + 1 * yj.val; omega)

/-- An index of the result array is in point t's block iff each coordinate is in the block's range on its axis. -/
theorem mem_blk (t : Fin cfg0.N) (i : S2048x16384.Idx) :
    i ∈ ((cfg0.win 4).blk t).view.set ↔ ∀ a : Fin 2, win0_4.index t a * S2048x256.size a ≤ (i a).val
      ∧ (i a).val < win0_4.index t a * S2048x256.size a + S2048x256.size a := by
  show i ∈ ((View.whole main_v9).slice (win0_4.rect t)).set ↔ _
  rw [View.set_slice_whole, Rect.mem_set_unit]
  exact Iff.rfl

/-- Every result column lies in the block of the point J / 256. -/
theorem cover (i : S2048x16384.Idx) :
    ∃ t : Fin cfg0.N, (cfg0.win 4).flush t = true ∧ i ∈ ((cfg0.win 4).blk t).view.set := by
  have hi0 : (i 0).val < 2048 := (i 0).isLt
  have hi1 : (i 1).val < 16384 := (i 1).isLt
  have hN : cfg0.N = 64 := N_0
  let t : Fin cfg0.N := ⟨(i 1).val / 256, by rw [hN]; omega⟩
  obtain ⟨_, _, _, _, _, _, _, a40, a41⟩ := where_blocks t
  have htv : t.val = (i 1).val / 256 := rfl
  refine ⟨t, flush0_4 t, ?_⟩
  rw [mem_blk]
  intro a
  match a with
  | ⟨0, _⟩ => show win0_4.index t (0 : Fin 2) * 2048 ≤ (i 0).val ∧ (i 0).val < win0_4.index t (0 : Fin 2) * 2048 + 2048; omega
  | ⟨1, _⟩ => show win0_4.index t (1 : Fin 2) * 256 ≤ (i 1).val ∧ (i 1).val < win0_4.index t (1 : Fin 2) * 256 + 256; omega

/-- THE RESULT ARRAY after the run: G of the argument arrays. -/
theorem final (c : Dev nD) :
    (dats m 0 c).arrAt 4 cfg0.N
      = G (m ((c : Thread nD τ).loc main_arg0)) (m ((c : Thread nD τ).loc main_arg1)) (m ((c : Thread nD τ).loc main_arg2)) := by
  rw [(dats m 0 c).arrAt_eq_of_cover 4 (GV m c) (fun t _ => flushed_eq m c t) cover]
  show G (V m c main_arg0) (V m c main_arg1) (V m c main_arg2) = _
  rw [V_main_arg0, V_main_arg1, V_main_arg2]

/-- The kernel's run with its result named: the result array at G of the arguments, the arguments unchanged. -/
theorem run : θ_run defs (onTc (τ := τ) (main (F := Ideal))) ⟨m, fun _ => 0, ρ⟩ fun r => ∀ c : Dev nD,
      r.2.mem ((c : Thread nD τ).loc main_v9)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Blocks

end
-- ==== Proof.Ref.lean ====
/-
  The reference's result is G.

  Read one entry at a time: the scaled array x·w (the weight row copied down the rows) is laid out as
  [2048, 16384, 2] — entry (b, J, d) is the scaled entry (b, 2J + d), since ((b·16384 + J)·2 + d) splits by 32768 into
  row b and column 2J + d — and its last axis is summed from the zero word: 0 + (pair's first + pair's second).  The bias is
  laid as a row and copied down the rows, then the comparison with zero, the scaling by the slope's word and the choice act
  entry by entry, the same three operations on the same words as in G.
-/
import proofs.«139264_j489626271943_1_alg».proof.Proof.Gen.ReferenceIdeal.Read
import proofs.«139264_j489626271943_1_alg».proof.Proof.Spec

open scoped BigOperators

noncomputable section

namespace Cert.ReferenceIdeal.RefValue

open Cert.ReferenceIdeal Cert.ReferenceIdeal.Gen Cert.ReferenceIdeal.Read Idealize.ShloMosaic Idealize.ShloMosaic.ValueIdx
open Cert.PairPool

/-- Entry (b, J, d) of the three-axis layout is the scaled array's entry (b, 2J + d). -/
theorem pair_index (b : Fin 2048) (J : Fin 16384) (d : Fin 2) :
    idx_main_v2 (idx_main_v3 (ix2 b J) d) = ix2 b (col J d) := by
  have h0 : b.val < 2048 := b.isLt
  have h1 : J.val < 16384 := J.isLt
  have hd : d.val < 2 := d.isLt
  funext a
  apply Fin.ext
  match a with
  | ⟨0, _⟩ => show ((b.val * 16384 + J.val) * 2 + d.val) / 32768 = b.val; omega
  | ⟨1, _⟩ => show ((b.val * 16384 + J.val) * 2 + d.val) % 32768 = 2 * J.val + d.val; omega

/-- The weight row copied down the rows reads, at (b, n), the row's entry n. -/
theorem weight_index (b : Fin 2048) (n : Fin 32768) : idx_main_v0 (ix2 b n) = ix2 0 n := by
  funext a
  match a with
  | ⟨0, _⟩ => rfl
  | ⟨1, _⟩ => rfl

/-- The bias laid as a row and copied down the rows reads, at (b, J), the bias's entry J. -/
theorem bias_index (b : Fin 2048) (J : Fin 16384) : idx_main_v4 (idx_main_v5 (ix2 b J)) = ix1 J := by
  funext a
  match a with
  | ⟨0, _⟩ => rfl

/-- The scaled array at (b, n): the input's entry times the weight row's entry n. -/
theorem scaled_apply (x0 : (⟨S2048x32768, .f32⟩ : BufTy).Contents (Elt Ideal)) (x1 : (⟨S1x32768, .f32⟩ : BufTy).Contents (Elt Ideal))
    (b : Fin 2048) (n : Fin 32768) :
    val_main_v1 (F := Ideal) x0 x1 (ix2 b n) = x0 (ix2 b n) * x1 (ix2 0 n) := by
  rw [val_main_v1_apply, val_main_v0_apply, weight_index]
  rfl

/-- THE REFERENCE'S LAST STAGE IS G. -/
theorem result_eq (x0 : (⟨S2048x32768, .f32⟩ : BufTy).Contents (Elt Ideal)) (x1 : (⟨S1x32768, .f32⟩ : BufTy).Contents (Elt Ideal))
    (x2 : (⟨S16384, .f32⟩ : BufTy).Contents (Elt Ideal)) :
    val_main_v11 (F := Ideal) x0 x1 x2 = G x0 x1 x2 := by
  refine funext fun (i : S2048x16384.Idx) => ?_
  obtain ⟨b, J, rfl⟩ : ∃ (b : Fin 2048) (J : Fin 16384), i = ix2 b J := ⟨i 0, i 1, eq_ix2 i⟩
  rw [val_main_v11_apply, val_main_v8_apply, val_main_v10_apply, val_main_v9_apply, val_main_cst_1_apply,
    val_main_v7_apply, val_main_cst_0_apply, val_main_v6_apply, val_main_v5_apply, val_main_v4_apply,
    val_main_v3_apply, val_main_cst_apply]
  simp only [val_main_v2_apply, pair_index, bias_index, Fin.sum_univ_two]
  rw [scaled_apply x0 x1 b (col J 0), scaled_apply x0 x1 b (col J 1)]
  show _ = outAt x0 x1 x2 b J
  unfold outAt leaky
  simp only [Ideal.ofBits_def, Ideal.mulf_def, Ideal.addf_def, Ideal.ofBits_zero_f32, zero_add]

end Cert.ReferenceIdeal.RefValue

end
-- ==== Proof.lean ====
/-
  A scaled, pair-summed, biased and leaky-rectified array, computed two ways.

  Inputs: x (2048 × 32768), a weight row w (1 × 32768) and a bias (16384).  Both programs return, at row b and column J,

      leaky( (x[b,2J]·w[0,2J] + x[b,2J+1]·w[0,2J+1]) + bias[J] ),     leaky z = z if z ≥ 0, else c·z,

  with c the same f32 word in both.  The reference sums the pairs directly (the scaled array laid out as
  [2048, 16384, 2], its last axis folded from zero).  The kernel works on 64 column tiles: on tile t it multiplies
  512 scaled columns by a 512 × 256 matrix of zeros and ones, built on the host from two iotas, whose entry (k, j) is 1
  exactly when k / 2 = j; the product's entry (b, j) is therefore the pair sum for column 256t + j.

  On the extended reals the two agree entry by entry: a·1 = a, a·0 = 0 and + a commutative monoid are all that is
  used (Spec.lean, `pooled_sum`), so the finiteness of the inputs is never opened.  The kernel's side is read off its
  run block by block (Body.lean: the stored value at an entry; Pool.lean: the 0/1 matrix; Blocks.lean: the 64 blocks
  tile the result), the reference's side one operation at a time (Ref.lean).  The kernel's idealization rewrote
  nothing, so that conjunct is `True`.
-/
import proofs.«139264_j489626271943_1_alg».proof.Defs
import proofs.«139264_j489626271943_1_alg».proof.Proof.Gen.Kernel
import proofs.«139264_j489626271943_1_alg».proof.Proof.Gen.Kernel.Skeleton
import proofs.«139264_j489626271943_1_alg».proof.Proof.Gen.Kernel.Launch
import proofs.«139264_j489626271943_1_alg».proof.Proof.Gen.Kernel.Points
import proofs.«139264_j489626271943_1_alg».proof.Proof.Gen.Kernel.Frame
import proofs.«139264_j489626271943_1_alg».proof.Proof.Gen.KernelIdeal
import proofs.«139264_j489626271943_1_alg».proof.Proof.Gen.KernelIdeal.Skeleton
import proofs.«139264_j489626271943_1_alg».proof.Proof.Gen.KernelIdeal.Launch
import proofs.«139264_j489626271943_1_alg».proof.Proof.Gen.KernelIdeal.Points
import proofs.«139264_j489626271943_1_alg».proof.Proof.Gen.KernelIdeal.Frame
import proofs.«139264_j489626271943_1_alg».proof.Proof.Gen.KernelIdeal.Value
import proofs.«139264_j489626271943_1_alg».proof.Proof.Gen.ReferenceIdeal
import proofs.«139264_j489626271943_1_alg».proof.Proof.Gen.ReferenceIdeal.Run
import proofs.«139264_j489626271943_1_alg».proof.Proof.Gen.ReferenceIdeal.Read
import proofs.«139264_j489626271943_1_alg».proof.Proof.Gen.Pre_finite_inputs
import proofs.«139264_j489626271943_1_alg».proof.Proof.Blocks
import proofs.«139264_j489626271943_1_alg».proof.Proof.Ref
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference has no launch: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- From memories that agree on x, w and the bias, both programs end with the result array at G of those arrays. -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.result_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
